-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x64 : Shape := ⟨3, ![32, 16384, 64]⟩
abbrev S128x64 : Shape := ⟨2, ![128, 64]⟩
abbrev S_ : Shape := ⟨0, ![]⟩

class Facts : Prop where
  bcast_S_S32x16384x64 : S_.BroadcastsInDim S32x16384x64 (![] : Fin 0 → Fin S32x16384x64.rank)
  reducesTo_S32x16384x64_S_d0_1_2 : S32x16384x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S32x16384x64 .f32) (main_arg1 : FVec F S128x64 .f32) : IVec S_ 1 :=
  let main_v0 : FVec F S32x16384x64 .f32 := Host.absf main_arg0
  let main_cst : FVec F S_ .f32 := constant S_ .f32 0x7F800000#32
  let main_v1 : FVec F S32x16384x64 .f32 := broadcastInDim S32x16384x64 ![] bcast_S_S32x16384x64 main_cst
  let main_v2 : IVec S32x16384x64 1 := cmpf .olt main_v0 main_v1
  let main_c : IVec S_ 1 := constantI S_ 1 1#1
  let main_v3 : IVec S_ 1 := (fun x v => Host.reduce IntOp.andi x v reducesTo_S32x16384x64_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Kernel.lean ====
abbrev S32x16384x64 : Shape := ⟨3, ![32, 16384, 64]⟩
abbrev S128x64 : Shape := ⟨2, ![128, 64]⟩
abbrev S64x128 : Shape := ⟨2, ![64, 128]⟩
abbrev S32x64x128 : Shape := ⟨3, ![32, 64, 128]⟩
abbrev S1x128x64 : Shape := ⟨3, ![1, 128, 64]⟩
abbrev S1x64x128 : Shape := ⟨3, ![1, 64, 128]⟩
abbrev S128x64x1 : Shape := ⟨3, ![128, 64, 1]⟩
abbrev S128x64x128 : Shape := ⟨3, ![128, 64, 128]⟩
abbrev S32x128x64 : Shape := ⟨3, ![32, 128, 64]⟩

abbrev nBuf : Space → Nat
  | .hbm => 5
  | .vmem => 6
  | .smem => 0
  | _ => 0

abbrev bufTy : (tb : Table) → Fin (tcTables nBuf tb) → BufTy
  | .hbm, ⟨0, _⟩ => ⟨S32x16384x64, .f32⟩
  | .hbm, ⟨1, _⟩ => ⟨S128x64, .f32⟩
  | .hbm, ⟨2, _⟩ => ⟨S64x128, .f32⟩
  | .hbm, ⟨3, _⟩ => ⟨S32x64x128, .f32⟩
  | .hbm, ⟨4, _⟩ => ⟨S32x128x64, .f32⟩
  | .local _ .vmem, ⟨0, _⟩ => ⟨S1x128x64, .f32⟩
  | .local _ .vmem, ⟨1, _⟩ => ⟨S1x128x64, .f32⟩
  | .local _ .vmem, ⟨2, _⟩ => ⟨S64x128, .f32⟩
  | .local _ .vmem, ⟨3, _⟩ => ⟨S1x64x128, .f32⟩
  | .local _ .vmem, ⟨4, _⟩ => ⟨S1x64x128, .f32⟩
  | .local _ .vmem, ⟨5, _⟩ => ⟨S64x128, .f32⟩
  | _, _ => ⟨S32x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 128], ![false, false]⟩

def k0_cond2 (i : grid0.Coords) : BitVec 1 :=
  let arg1 : BitVec 32 := BitVec.ofNat 32 (i 1).val
  let c127_i32_9 : BitVec 32 := 127#32
  let v25 : BitVec 1 := Scalar.cmpi .eq arg1 c127_i32_9
  let v26 : BitVec 32 := Scalar.extui v25
  let c0_i32_10 : BitVec 32 := 0#32
  let v27 : BitVec 1 := Scalar.cmpi .ne v26 c0_i32_10
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S128x64_S64x128_1_0 : S128x64.Transposes [1, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S128x64x1 : S128x64.ShapeCasts S128x64x1
  shapeCasts_S128x64x1_S128x64x1 : S128x64x1.ShapeCasts S128x64x1
  broadcasts_S128x64x1_S128x64x128 : S128x64x1.Broadcasts S128x64x128
  iota_S128x64x128_d2_w32 : S128x64x128.Iotas .tc 32 [2]
  natLt_1_32 : 1 < 32
  reduces_S128x64x128_S64x128 : S128x64x128.Reduces [0] S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  transposes_S32x64x128_S32x128x64_0_2_1 : S32x64x128.Transposes [0, 2, 1] S32x128x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S32x16384x64.size a
  hwx0_0 : ∀ i : grid0.Coords, EltTy.bits .f32 = 32 ∨ (Rect.block (s := S32x16384x64) S1x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S32x64x128.size a
  hwx0_2 : ∀ i : grid0.Coords, EltTy.bits .f32 = 32 ∨ (Rect.block (s := S32x64x128) S1x64x128.size (cc0_transform_2 i) (hinb0_2 i)).WholeWords (EltTy.packing .f32)

variable [Facts₀]

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x16384x64 : Shape := ⟨3, ![32, 16384, 64]⟩
abbrev S128x64 : Shape := ⟨2, ![128, 64]⟩
abbrev S_ : Shape := ⟨0, ![]⟩
abbrev S32 : Shape := ⟨1, ![32]⟩
abbrev S32x1x1 : Shape := ⟨3, ![32, 1, 1]⟩
abbrev S64 : Shape := ⟨1, ![64]⟩
abbrev S1x1x64 : Shape := ⟨3, ![1, 1, 64]⟩
abbrev S32x1x64 : Shape := ⟨3, ![32, 1, 64]⟩
abbrev S33554432 : Shape := ⟨1, ![33554432]⟩
abbrev S262144 : Shape := ⟨1, ![262144]⟩
abbrev S33554432x1 : Shape := ⟨2, ![33554432, 1]⟩
abbrev S32x64x128 : Shape := ⟨3, ![32, 64, 128]⟩
abbrev S32x128x64 : Shape := ⟨3, ![32, 128, 64]⟩
abbrev S1x128x64 : Shape := ⟨3, ![1, 128, 64]⟩

abbrev nBuf : Space → Nat
  | .hbm => 41
  | .vmem => 0
  | .smem => 0
  | _ => 0

abbrev bufTy : (tb : Table) → Fin (tcTables nBuf tb) → BufTy
  | .hbm, ⟨0, _⟩ => ⟨S32x16384x64, .f32⟩
  | .hbm, ⟨1, _⟩ => ⟨S128x64, .f32⟩
  | .hbm, ⟨2, _⟩ => ⟨S_, .f32⟩
  | .hbm, ⟨3, _⟩ => ⟨S32x16384x64, .f32⟩
  | .hbm, ⟨4, _⟩ => ⟨S32x16384x64, .f32⟩
  | .hbm, ⟨5, _⟩ => ⟨S32x16384x64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32x16384x64, .i32⟩
  | .hbm, ⟨10, _⟩ => ⟨S32x16384x64, .i32⟩
  | .hbm, ⟨11, _⟩ => ⟨S_, .i32⟩
  | .hbm, ⟨12, _⟩ => ⟨S32x16384x64, .i32⟩
  | .hbm, ⟨13, _⟩ => ⟨S32x16384x64, .i32⟩
  | .hbm, ⟨14, _⟩ => ⟨S32, .i32⟩
  | .hbm, ⟨15, _⟩ => ⟨S32x1x1, .i32⟩
  | .hbm, ⟨16, _⟩ => ⟨S64, .i32⟩
  | .hbm, ⟨17, _⟩ => ⟨S1x1x64, .i32⟩
  | .hbm, ⟨18, _⟩ => ⟨S_, .i32⟩
  | .hbm, ⟨19, _⟩ => ⟨S32x1x1, .i32⟩
  | .hbm, ⟨20, _⟩ => ⟨S32x1x1, .i32⟩
  | .hbm, ⟨21, _⟩ => ⟨S32x1x64, .i32⟩
  | .hbm, ⟨22, _⟩ => ⟨S32x1x64, .i32⟩
  | .hbm, ⟨23, _⟩ => ⟨S32x1x64, .i32⟩
  | .hbm, ⟨24, _⟩ => ⟨S_, .i32⟩
  | .hbm, ⟨25, _⟩ => ⟨S32x1x64, .i32⟩
  | .hbm, ⟨26, _⟩ => ⟨S32x1x64, .i32⟩
  | .hbm, ⟨27, _⟩ => ⟨S32x16384x64, .i32⟩
  | .hbm, ⟨28, _⟩ => ⟨S32x16384x64, .i32⟩
  | .hbm, ⟨29, _⟩ => ⟨S_, .f32⟩
  | .hbm, ⟨30, _⟩ => ⟨S33554432, .f32⟩
  | .hbm, ⟨31, _⟩ => ⟨S33554432, .i32⟩
  | .hbm, ⟨32, _⟩ => ⟨S_, .f32⟩
  | .hbm, ⟨33, _⟩ => ⟨S262144, .f32⟩
  | .hbm, ⟨34, _⟩ => ⟨S33554432x1, .i32⟩
  | .hbm, ⟨35, _⟩ => ⟨S262144, .f32⟩
  | .hbm, ⟨36, _⟩ => ⟨S32x64x128, .f32⟩
  | .hbm, ⟨37, _⟩ => ⟨S32x128x64, .f32⟩
  | .hbm, ⟨38, _⟩ => ⟨S1x128x64, .f32⟩
  | .hbm, ⟨39, _⟩ => ⟨S32x128x64, .f32⟩
  | .hbm, ⟨40, _⟩ => ⟨S32x128x64, .f32⟩
  | _, _ => ⟨S32x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S32x16384x64 : S_.BroadcastsInDim S32x16384x64 (![] : Fin 0 → Fin S32x16384x64.rank)
  bcast_S32_S32x1x1_0 : S32.BroadcastsInDim S32x1x1 (![0] : Fin 1 → Fin S32x1x1.rank)
  bcast_S64_S1x1x64_2 : S64.BroadcastsInDim S1x1x64 (![2] : Fin 1 → Fin S1x1x64.rank)
  bcast_S_S32x1x1 : S_.BroadcastsInDim S32x1x1 (![] : Fin 0 → Fin S32x1x1.rank)
  bcast_S32x1x1_S32x1x64_0_1_2 : S32x1x1.BroadcastsInDim S32x1x64 (![0, 1, 2] : Fin 3 → Fin S32x1x64.rank)
  bcast_S1x1x64_S32x1x64_0_1_2 : S1x1x64.BroadcastsInDim S32x1x64 (![0, 1, 2] : Fin 3 → Fin S32x1x64.rank)
  bcast_S_S32x1x64 : S_.BroadcastsInDim S32x1x64 (![] : Fin 0 → Fin S32x1x64.rank)
  bcast_S32x1x64_S32x16384x64_0_1_2 : S32x1x64.BroadcastsInDim S32x16384x64 (![0, 1, 2] : Fin 3 → Fin S32x16384x64.rank)
  bcast_S_S33554432 : S_.BroadcastsInDim S33554432 (![] : Fin 0 → Fin S33554432.rank)
  shapeCasts_S32x16384x64_S33554432 : S32x16384x64.ShapeCasts S33554432
  bcast_S_S262144 : S_.BroadcastsInDim S262144 (![] : Fin 0 → Fin S262144.rank)
  bcast_S33554432_S33554432x1_0 : S33554432.BroadcastsInDim S33554432x1 (![0] : Fin 1 → Fin S33554432x1.rank)
  shapeCasts_S262144_S32x64x128 : S262144.ShapeCasts S32x64x128
  transposes_S32x64x128_S32x128x64_0_2_1 : S32x64x128.Transposes [0, 2, 1] S32x128x64
  bcast_S128x64_S1x128x64_1_2 : S128x64.BroadcastsInDim S1x128x64 (![1, 2] : Fin 2 → Fin S1x128x64.rank)
  bcast_S1x128x64_S32x128x64_0_1_2 : S1x128x64.BroadcastsInDim S32x128x64 (![0, 1, 2] : Fin 3 → Fin S32x128x64.rank)
  scatter_S262144_S33554432x1_S33554432_n_0_0_1_wf : ScatterDims.WF S262144 S33554432x1 S33554432 [] [0] [0] 1

variable [Facts₀]

def scatter_S262144_S33554432x1_S33554432_n_0_0_1 : ScatterDims S262144 S33554432x1 S33554432 where
  updateWindowDims := []
  insertedWindowDims := [0]
  scatterDimsToOperandDims := [0]
  indexVectorDim := 1
  wf := scatter_S262144_S33554432x1_S33554432_n_0_0_1_wf

class Facts : Prop extends Facts₀ where

variable [Facts]
-- ==== Proof.KernelPieces.lean ====
/-
  What one run of the kernel body leaves behind, case by case, as values of the blocks it was given.

  At the first tile of a row group the body zeroes the scratch and then adds the tile's counts to it; at every other tile it
  adds the tile's counts to what the tile before left; at the last tile it also stores the scratch times the weight block
  into the output block.  Each store covers its whole buffer, so what is left is the stored payload, with the loads read
  back as the buffers' contents (at the first tile the accumulation's load reads the zeros just stored).
-/
import proofs.«148349_j63668595196222_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HistValue

open Cert.KernelIdeal Cert.KernelIdeal.Gen

variable {F : FTy → Type} [FloatOps F]

/-- All-zero offsets, in the two spellings the stores carry. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the scratch ends at the accumulation of the input block over its old contents. -/
theorem sout_B (c : Dev nD) (i : grid0.Coords) (a2 : Memref sig .tc .vmem S1x128x64 .f32) (h2 : a2.IsWhole)
    (a3 : Memref sig .tc .vmem S64x128 .f32) (h3 : a3.IsWhole) (a4 : Memref sig .tc .vmem S1x64x128 .f32) (h4 : a4.IsWhole)
    (a5 : Memref sig .tc .vmem S64x128 .f32) (h5 : a5.IsWhole) (hc0 : ¬cond0_0 i) (hc1 : ¬cond0_1 i)
    (x0 : Vec F S1x128x64 .f32) (x1 : Vec F S64x128 .f32) (xs0 : Vec F S64x128 .f32) :
    sout0_B_0 c i a2 h2 a3 h3 a4 h4 a5 h5 hc0 hc1 x0 x1 xs0 = k0_pay2 x0 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h5.read_unread, View.ld_unit_zero (S := S1x128x64) hz3, View.ld_unit_zero (S := S64x128) hz2]

/-- A first tile: the scratch ends at the accumulation of the input block over the zeros. -/
theorem sout_A (c : Dev nD) (i : grid0.Coords) (a2 : Memref sig .tc .vmem S1x128x64 .f32) (h2 : a2.IsWhole)
    (a3 : Memref sig .tc .vmem S64x128 .f32) (h3 : a3.IsWhole) (a4 : Memref sig .tc .vmem S1x64x128 .f32) (h4 : a4.IsWhole)
    (a5 : Memref sig .tc .vmem S64x128 .f32) (h5 : a5.IsWhole) (hc0 : cond0_0 i) (hc1 : ¬cond0_1 i)
    (x0 : Vec F S1x128x64 .f32) (x1 : Vec F S64x128 .f32) :
    sout0_A_0 c i a2 h2 a3 h3 a4 h4 a5 h5 hc0 hc1 x0 x1 = k0_pay2 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x128) hz2, View.readCov_unit_zero (S := S64x128) _ hz2]
  simp only [View.readAt_eq_ld, h2.read_unread, View.ld_unit_zero (S := S1x128x64) hz3, View.ld_unit_zero (S := S64x128) hz2, View.readCov_unit_zero (S := S64x128) _ hz2]

/-- A last tile: the scratch as at a middle tile … -/
theorem sout_C (c : Dev nD) (i : grid0.Coords) (a2 : Memref sig .tc .vmem S1x128x64 .f32) (h2 : a2.IsWhole)
    (a3 : Memref sig .tc .vmem S64x128 .f32) (h3 : a3.IsWhole) (a4 : Memref sig .tc .vmem S1x64x128 .f32) (h4 : a4.IsWhole)
    (a5 : Memref sig .tc .vmem S64x128 .f32) (h5 : a5.IsWhole) (hc0 : ¬cond0_0 i) (hc1 : cond0_1 i)
    (x0 : Vec F S1x128x64 .f32) (x1 : Vec F S64x128 .f32) (xs0 : Vec F S64x128 .f32) :
    sout0_C_0 c i a2 h2 a3 h3 a4 h4 a5 h5 hc0 hc1 x0 x1 xs0 = k0_pay2 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h5.read_unread, View.ld_unit_zero (S := S1x128x64) hz3, View.ld_unit_zero (S := S64x128) hz2]

/-- … and the output block at that scratch times the weight block. -/
theorem out_C (c : Dev nD) (i : grid0.Coords) (a2 : Memref sig .tc .vmem S1x128x64 .f32) (h2 : a2.IsWhole)
    (a3 : Memref sig .tc .vmem S64x128 .f32) (h3 : a3.IsWhole) (a4 : Memref sig .tc .vmem S1x64x128 .f32) (h4 : a4.IsWhole)
    (a5 : Memref sig .tc .vmem S64x128 .f32) (h5 : a5.IsWhole) (hc0 : ¬cond0_0 i) (hc1 : cond0_1 i)
    (x0 : Vec F S1x128x64 .f32) (x1 : Vec F S64x128 .f32) (xs0 : Vec F S64x128 .f32) :
    out0_C_2 c i a2 h2 a3 h3 a4 h4 a5 h5 hc0 hc1 x0 x1 xs0 = k0_pay3 (k0_pay2 x0 xs0) x1 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S1x128x64) hz3, View.ld_unit_zero (S := S64x128) hz2, View.readCov_unit_zero (S := S64x128) _ hz2]

end Cert.KernelIdeal.HistValue

end
-- ==== Proof.HistSpec.lean ====
/-
  The histogram both programs compute, as one function of the two argument arrays.

  For an input x : [32, 16384, 64] and weights w : [128, 64] the result at (b, k, f) is
      (the number of positions s with bin (x b s f) = k) · w k f,
  where bin v is v · 128 truncated toward zero to a 32-bit integer and clamped to [0, 127].  The count is the sum,
  over the 16384 positions, of the indicator "bin (x b s f) = k" taken as the real 1 or 0; on the extended reals such a
  sum may be regrouped freely, which is all that joins the two programs.
-/
import Idealize.ShloMosaic.PureOps.Ideal
import Idealize.ShloMosaic.Lib.ValueIdx

noncomputable section

namespace Cert.Hist

open Idealize.ShloMosaic Idealize.ShloMosaic.ValueIdx

/-- The bin of a value: v · 128, truncated toward zero, clamped to [0, 127]; as the 32-bit word both programs hold. -/
def binWord (v : EReal) : BitVec 32 :=
  IntOp.minsi 127#32 (IntOp.maxsi 0#32 (Ideal.fptosi 32 (v * Ideal.ofBits .f32 0x43000000#32)))

/-- The indicator "word a is word b", as the real number the comparison bit converts to. -/
def hit (a b : BitVec 32) : EReal := ((((IntOp.cmpi .eq a b).setWidth 32).toInt : ℝ) : EReal)

theorem hit_eq (a b : BitVec 32) : hit a b = if a = b then 1 else 0 := by
  unfold hit IntOp.cmpi
  by_cases h : a = b
  · subst h; simp
  · have : (a == b) = false := by simpa using h
    simp [this, h]

/-- A bin is a word in [0, 127]. -/
theorem binWord_range (v : EReal) : 0 ≤ (binWord v).toInt ∧ (binWord v).toInt ≤ 127 := by
  unfold binWord IntOp.minsi IntOp.maxsi
  generalize Ideal.fptosi 32 (v * Ideal.ofBits .f32 0x43000000#32) = z
  simp only [BitVec.slt]
  have h127 : (127#32 : BitVec 32).toInt = 127 := by decide
  have h0 : (0#32 : BitVec 32).toInt = 0 := by decide
  split_ifs with h1 h2 h2 <;> simp only [decide_eq_true_eq, h127, h0] at * <;> omega

/-- How many of the 16384 positions of row (b, ·, f) fall in bin k. -/
def count (x : (⟨3, ![32, 16384, 64]⟩ : Shape).Idx → EReal) (b : Fin 32) (f : Fin 64) (k : Fin 128) : EReal :=
  ∑ s : Fin 16384, hit (binWord (x (ix3 b s f))) (BitVec.ofNat 32 k.val)

/-- The weighted histogram, laid out [32, 128, 64]. -/
def G (x : (⟨3, ![32, 16384, 64]⟩ : Shape).Idx → EReal) (w : (⟨2, ![128, 64]⟩ : Shape).Idx → EReal) :
    (⟨3, ![32, 128, 64]⟩ : Shape).Idx → EReal :=
  fun j => count x (j 0) (j 2) (j 1) * w (ix2 (j 1) (j 2))

end Cert.Hist

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.LibSumIdx.lean ====
/-
  A general lemma file. A finite sum over the index set of a rank-1 or a rank-3 array is the sum over its coordinates:
  the index set is the product of the coordinates' ranges. It holds in any commutative additive monoid, so in particular
  over the extended reals, where regrouping a sum needs no finiteness.
-/
import Idealize.ShloMosaic.Lib.ValueIdx

noncomputable section

open scoped BigOperators

namespace Cert.SumIdx

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SumIdx

end
-- ==== Proof.HistSums.lean ====
/-
  The two regroupings of the count.

  The kernel walks the 16384 positions of a row in 128 tiles of 128 and keeps a running total: after tile n it holds
  the sum of the first n + 1 tile counts (`running`), and after the last tile the whole count (`running_last`,
  `count_eq_tiles`).  The reference numbers every (b, s, f) with the segment (b · 64 + f) · 128 + bin and adds a one to
  that segment: since a bin is in [0, 127], the positions numbered (b · 64 + f) · 128 + k are exactly the (b, s, f)
  with bin k (`seg_count`).
-/
import proofs.«148349_j63668595196222_1_alg».proof.Proof.HistSpec
import proofs.«148349_j63668595196222_1_alg».proof.Proof.LibSumTiles
import proofs.«148349_j63668595196222_1_alg».proof.Proof.LibSumIdx

noncomputable section

namespace Cert.Hist

open Idealize.ShloMosaic Idealize.ShloMosaic.ValueIdx

/-! ## The running total over tiles -/

/-- The sum of the first n + 1 of 128 tile values. -/
def running (tile : Fin 128 → EReal) (n : ℕ) : EReal :=
  ∑ T ∈ Finset.range (n + 1), if h : T < 128 then tile ⟨T, h⟩ else 0

theorem running_zero (tile : Fin 128 → EReal) : running tile 0 = tile 0 := by
  unfold running
  rw [Finset.sum_range_one, dif_pos (by decide : 0 < 128)]
  rfl

theorem running_succ (tile : Fin 128 → EReal) (n : ℕ) (h : n + 1 < 128) :
    running tile (n + 1) = running tile n + tile ⟨n + 1, h⟩ := by
  unfold running
  rw [Finset.sum_range_succ, dif_pos h]

theorem running_last (tile : Fin 128 → EReal) : running tile 127 = ∑ T : Fin 128, tile T := by
  unfold running
  rw [Finset.sum_range (fun T => if h : T < 128 then tile ⟨T, h⟩ else 0)]
  exact Finset.sum_congr rfl fun T _ => by rw [dif_pos T.isLt]

/-- Position r of tile T of a row. -/
def pos (T r : Fin 128) : Fin 16384 := ⟨128 * T.val + r.val, by have := T.isLt; have := r.isLt; omega⟩

/-- The count of one tile: how many of its 128 positions fall in bin k. -/
def tileCount (x : (⟨3, ![32, 16384, 64]⟩ : Shape).Idx → EReal) (b : Fin 32) (f : Fin 64) (k : Fin 128) (T : Fin 128) : EReal :=
  ∑ r : Fin 128, hit (binWord (x (ix3 b (pos T r) f))) (BitVec.ofNat 32 k.val)

/-- The count of a row is the sum of its tiles' counts. -/
theorem count_eq_tiles (x : (⟨3, ![32, 16384, 64]⟩ : Shape).Idx → EReal) (b : Fin 32) (f : Fin 64) (k : Fin 128) :
    count x b f k = ∑ T : Fin 128, tileCount x b f k T := by
  unfold count tileCount
  exact Cert.SumTiles.sum_tiles 128 128 (fun s : Fin (128 * 128) => hit (binWord (x (ix3 b s f))) (BitVec.ofNat 32 k.val))

/-! ## The reference's segment numbers -/

/-- The segment of (b, f) with bin word w, in the reference's 32-bit arithmetic. -/
def segWord (b : Fin 32) (f : Fin 64) (w : BitVec 32) : BitVec 32 :=
  IntOp.addi (IntOp.muli (IntOp.addi (IntOp.muli (BitVec.ofNat 32 b.val) 64#32) (BitVec.ofNat 32 f.val)) 128#32) w

/-- No wrap-around: the segment, read signed, is (b · 64 + f) · 128 + the bin. -/
theorem segWord_toInt (b : Fin 32) (f : Fin 64) (w : BitVec 32) (h0 : 0 ≤ w.toInt) (h1 : w.toInt ≤ 127) :
    (segWord b f w).toInt = ((b.val * 64 + f.val) * 128 : ℕ) + w.toInt := by
  have hb := b.isLt; have hf := f.isLt
  unfold segWord IntOp.addi IntOp.muli
  have hw : w.toNat ≤ 127 := by
    rw [BitVec.toInt_eq_toNat_cond] at h0 h1
    split_ifs at h0 h1 <;> omega
  have hwI : w.toInt = (w.toNat : Int) := by
    rw [BitVec.toInt_eq_toNat_cond, if_pos (by omega)]
  have e : (((BitVec.ofNat 32 b.val * 64#32 + BitVec.ofNat 32 f.val) * 128#32 + w).toNat) = (b.val * 64 + f.val) * 128 + w.toNat := by
    simp only [BitVec.toNat_add, BitVec.toNat_mul, BitVec.toNat_ofNat]
    omega
  rw [BitVec.toInt_eq_toNat_cond, if_pos (by rw [e]; omega), e, hwI]
  push_cast
  ring

/-- A small number's word, read signed, is the number. -/
theorem ofNat_toInt_small (k : ℕ) (hk : k < 128) : (BitVec.ofNat 32 k).toInt = (k : Int) := by
  rw [BitVec.toInt_eq_toNat_cond, BitVec.toNat_ofNat]
  have e : k % 2 ^ 32 = k := Nat.mod_eq_of_lt (by omega)
  rw [e, if_pos (by omega)]

/-- The segments numbered (b · 64 + f) · 128 + k are exactly those of (b, f) with bin k. -/
theorem segWord_eq_iff (b b' : Fin 32) (f f' : Fin 64) (k : Fin 128) (w : BitVec 32) (h0 : 0 ≤ w.toInt) (h1 : w.toInt ≤ 127) :
    (segWord b' f' w).toInt = (((b.val * 64 + f.val) * 128 + k.val : ℕ) : Int) ↔ (b' = b ∧ f' = f ∧ w = BitVec.ofNat 32 k.val) := by
  rw [segWord_toInt b' f' w h0 h1]
  have hb := b.isLt; have hf := f.isLt; have hb' := b'.isLt; have hf' := f'.isLt; have hk := k.isLt
  constructor
  · intro h
    have hbb : b'.val = b.val := by omega
    have hff : f'.val = f.val := by omega
    refine ⟨Fin.ext hbb, Fin.ext hff, ?_⟩
    have hwk : w.toInt = (k.val : Int) := by omega
    apply BitVec.eq_of_toInt_eq
    rw [hwk, ofNat_toInt_small k.val hk]
  · rintro ⟨rfl, rfl, rfl⟩
    rw [ofNat_toInt_small k.val hk]; push_cast; ring

/-- Adding a one for every (b', s, f') whose segment is that of (b, f, k) counts row (b, ·, f) in bin k. -/
theorem seg_count (x : (⟨3, ![32, 16384, 64]⟩ : Shape).Idx → EReal) (b : Fin 32) (f : Fin 64) (k : Fin 128) :
    (∑ i : (⟨3, ![32, 16384, 64]⟩ : Shape).Idx,
        if (segWord (i 0) (i 2) (binWord (x i))).toInt = (((b.val * 64 + f.val) * 128 + k.val : ℕ) : Int) then (1 : EReal) else 0)
      = count x b f k := by
  rw [Cert.SumIdx.sum_idx3]
  unfold count
  rw [Finset.sum_eq_single b]
  · refine Finset.sum_congr rfl fun s _ => ?_
    rw [Finset.sum_eq_single f]
    · rw [hit_eq]
      have hr := binWord_range (x (ix3 b s f))
      exact if_congr ((segWord_eq_iff b b f f k _ hr.1 hr.2).trans ⟨fun h => h.2.2, fun h => ⟨rfl, rfl, h⟩⟩) rfl rfl
    · intro f' _ hf'
      have hr := binWord_range (x (ix3 b s f'))
      rw [if_neg]
      intro h
      exact hf' ((segWord_eq_iff b b f f' k _ hr.1 hr.2).mp h).2.1
    · intro h; exact absurd (Finset.mem_univ _) h
  · intro b' _ hb'
    refine Finset.sum_eq_zero fun s _ => Finset.sum_eq_zero fun f' _ => ?_
    have hr := binWord_range (x (ix3 b' s f'))
    rw [if_neg]
    intro h
    exact hb' ((segWord_eq_iff b b' f f' k _ hr.1 hr.2).mp h).1
  · intro h; exact absurd (Finset.mem_univ _) h

end Cert.Hist

end
-- ==== Proof.KernelPayloads.lean ====
/-
  The kernel body's three stored values, read at an index at the ideal instance.

  The reset stores zeros.  The accumulation stores, at (f, k), the old scratch entry plus the number of the tile's 128
  rows r whose bin word at feature f is k: the body builds the [128, 64, 128] array of indicators "bin (r, f) = k" (the bin
  array broadcast along a new last axis against the iota of that axis) and sums it over r.  The final store is the scratch
  times the (transposed) weight block, entry by entry.
-/
import proofs.«148349_j63668595196222_1_alg».proof.Proof.HistSums
import proofs.«148349_j63668595196222_1_alg».proof.Proof.Gen.KernelIdeal.Skeleton
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.KernelIdeal.HistValue

open Cert.KernelIdeal Cert.KernelIdeal.Gen Cert.Hist

/-- The reset's zeros. -/
theorem pay1_apply (j : S64x128.Idx) : k0_pay1 (F := Ideal) j = (0 : EReal) := by
  unfold k0_pay1
  rw [shapeCast_self]
  exact Ideal.ofBits_zero_f32

/-- The tile's bin words: row r, feature f of the block. -/
def binVec (x0 : Vec Ideal S1x128x64 .f32) : IVec S128x64 32 :=
  minsi (broadcast S128x64 127#32) (maxsi (broadcast S128x64 0#32)
    (fptosi 32 (mulf (shapeCast S128x64 x0 shapeCasts_S1x128x64_S128x64) (broadcast S128x64 (Scalar.ofBits (F := Ideal) .f32 0x43000000#32)))))

theorem binVec_apply (x0 : Vec Ideal S1x128x64 .f32) (r : Fin 128) (f : Fin 64) :
    binVec x0 (ix2 r f) = binWord (x0 (ix3 (0 : Fin 1) r f)) := by
  show IntOp.minsi 127#32 (IntOp.maxsi 0#32 (Ideal.fptosi 32
    (shapeCast S128x64 x0 shapeCasts_S1x128x64_S128x64 (ix2 r f) * Ideal.ofBits .f32 0x43000000#32))) = _
  rw [shapeCast_1ab_ab_apply]
  rfl

/-- The indicator array at (r, f, k): is the bin of (r, f) the number k? -/
def hits (x0 : Vec Ideal S1x128x64 .f32) : FVec Ideal S128x64x128 .f32 :=
  sitofp .f32 (extui 32 (cmpi .eq
    (broadcastTo S128x64x128 (shapeCast S128x64x1 (shapeCast S128x64x1 (binVec x0) shapeCasts_S128x64_S128x64x1) shapeCasts_S128x64x1_S128x64x1) broadcasts_S128x64x1_S128x64x128)
    (iota .tc S128x64x128 32 [2] iota_S128x64x128_d2_w32)) natLt_1_32)

theorem hits_apply (x0 : Vec Ideal S1x128x64 .f32) (r : Fin 128) (f : Fin 64) (k : Fin 128) :
    hits x0 (ix3 r f k) = hit (binWord (x0 (ix3 (0 : Fin 1) r f))) (BitVec.ofNat 32 k.val) := by
  have e1 : broadcastTo S128x64x128 (shapeCast S128x64x1 (shapeCast S128x64x1 (binVec x0) shapeCasts_S128x64_S128x64x1) shapeCasts_S128x64x1_S128x64x1) broadcasts_S128x64x1_S128x64x128 (ix3 r f k)
      = binVec x0 (ix2 r f) := by
    rw [shapeCast_self]
    refine (broadcastTo_apply _ broadcasts_S128x64x1_S128x64x128 (ix3 r f k) (ix3 r f (0 : Fin 1)) (fun a => ?_)).trans ?_
    · match a with
      | ⟨0, _⟩ => rfl
      | ⟨1, _⟩ => rfl
      | ⟨2, _⟩ => rfl
    · refine shapeCast_apply (binVec x0) shapeCasts_S128x64_S128x64x1 (ix3 r f (0 : Fin 1)) (ix2 r f) ?_
      rw [Shape.rowMajor_val_three, Shape.rowMajor_val_two]
      show r.val * 64 + f.val = (r.val * 64 + f.val) * 1 + 0
      omega
  have e2 : iota .tc S128x64x128 32 [2] iota_S128x64x128_d2_w32 (ix3 r f k) = BitVec.ofNat 32 k.val :=
    iota_single_apply .tc S128x64x128 32 2 iota_S128x64x128_d2_w32 (ix3 r f k)
  show hit (broadcastTo S128x64x128 _ broadcasts_S128x64x1_S128x64x128 (ix3 r f k))
    (iota .tc S128x64x128 32 [2] iota_S128x64x128_d2_w32 (ix3 r f k)) = _
  rw [e1, e2, binVec_apply]

/-- Summing the indicators over the rows: the source index over (f, k) with row r is (r, f, k). -/
theorem lift_eq (f : Fin 64) (k : Fin 128) (r : Fin (S128x64x128.size 0)) :
    reduces_S128x64x128_S64x128.lift (ix2 f k) r = ix3 (n0 := 128) r f k := by
  funext c
  refine Fin.ext ?_
  match c with
  | ⟨0, _⟩ => rfl
  | ⟨1, _⟩ => rfl
  | ⟨2, _⟩ => rfl

/-- The accumulation: the old entry plus the tile's count of bin k at feature f. -/
theorem pay2_apply (x0 : Vec Ideal S1x128x64 .f32) (acc : Vec Ideal S64x128 .f32) (f : Fin 64) (k : Fin 128) :
    k0_pay2 x0 acc (ix2 f k)
      = (acc (ix2 f k) : EReal) + ∑ r : Fin 128, hit (binWord (x0 (ix3 (0 : Fin 1) r f))) (BitVec.ofNat 32 k.val) := by
  have e : k0_pay2 x0 acc = addf acc (multiReduction .add [0] S64x128 (hits x0) 0x00000000#32 reduces_S128x64x128_S64x128 (.inl rfl) rfl) := by
    unfold k0_pay2
    exact shapeCast_self _ _
  rw [e]
  show (acc (ix2 f k) : EReal) + multiReduction .add [0] S64x128 (hits x0) 0x00000000#32 reduces_S128x64x128_S64x128 (.inl rfl) rfl (ix2 f k) = _
  congr 1
  refine (Ideal.multiReduction_add_single (hits x0) 0x00000000#32 reduces_S128x64x128_S64x128 (.inl rfl) rfl (ix2 f k)).trans ?_
  refine Finset.sum_congr rfl fun r _ => ?_
  exact (congrArg (hits x0) (lift_eq f k r)).trans (hits_apply x0 r f k)

/-- The final store: scratch times weight block. -/
theorem pay3_apply (acc : Vec Ideal S64x128 .f32) (wt : Vec Ideal S64x128 .f32) (u : Fin 1) (f : Fin 64) (k : Fin 128) :
    k0_pay3 acc wt (ix3 u f k) = (acc (ix2 f k) : EReal) * wt (ix2 f k) := by
  unfold k0_pay3
  rw [shapeCast_self]
  exact shapeCast_ab_1ab_apply _ shapeCasts_S64x128_S1x64x128 u f k

end Cert.KernelIdeal.HistValue

end
-- ==== Proof.KernelValue.lean ====
/-
  The kernel's run, read as a value at the ideal instance.

  The grid is 32 row groups b by 128 tiles T; point t = 128 · b + T works on rows 128 · T … 128 · T + 127 of x[b].  The scratch
  carried between points holds, after point t, at (f, k) the number of rows of tiles 0 … T of x[b] whose bin at feature f
  is k (`scratch_eq`, by induction on the point: a first tile starts from zero, every other tile adds to what the tile before
  left).  At a row group's last tile the output block b is stored as that scratch times the transposed weights, so it is the
  whole count of x[b] times the weight, and these 32 blocks tile the result array [32, 64, 128] (`final`).  The host then
  swaps the last two axes, which gives the histogram in the layout [32, 128, 64] (`run`).
-/
import proofs.«148349_j63668595196222_1_alg».proof.Proof.KernelPieces
import proofs.«148349_j63668595196222_1_alg».proof.Proof.KernelPayloads
import proofs.«148349_j63668595196222_1_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HistValue

open Cert.KernelIdeal Cert.KernelIdeal.Gen Cert.Hist

variable (m : (ℓ : Loc nD τ sig) → Buf (Elt Ideal) ℓ) (ρ : Dev nD → PrngReg)

/-! ## Names of literal type for the blocks and the arrays -/

/-- The input block of point t: 128 rows of x[b]. -/
abbrev xblk (c : Dev nD) (t : Fin cfg0.N) : Vec Ideal S1x128x64 .f32 := iblk m c 0 t
/-- The weight block of point t: the whole transposed weight array. -/
abbrev wblk (c : Dev nD) (t : Fin cfg0.N) : Vec Ideal S64x128 .f32 := iblk m c 1 t
/-- The input array as the region finds it. -/
abbrev xarr (c : Dev nD) : Vec Ideal S32x16384x64 .f32 := V m c main_arg0
/-- The transposed weights as the region finds them. -/
abbrev warr (c : Dev nD) : Vec Ideal S64x128 .f32 := V m c main_v0

/-- The row group and the tile of a point. -/
def bOf (t : Fin cfg0.N) : Fin 32 := ⟨t.val / 128, by have := t.isLt; have e : cfg0.N = 4096 := N_0; omega⟩
def sOf (t : Fin cfg0.N) : Fin 128 := ⟨t.val % 128, Nat.mod_lt _ (by decide)⟩

/-- The printed index maps, decided over the grid: the input's block is (t / 128, t % 128, 0), the weights' (0, 0), the
    output's (t / 128, 0, 0). -/
theorem idx_facts : ∀ t : Fin cfg0.N,
    win0_0.index t (0 : Fin 3) = t.val / 128 ∧ win0_0.index t (1 : Fin 3) = t.val % 128 ∧ win0_0.index t (2 : Fin 3) = 0
    ∧ win0_1.index t (0 : Fin 2) = 0 ∧ win0_1.index t (1 : Fin 2) = 0
    ∧ win0_2.index t (0 : Fin 3) = t.val / 128 ∧ win0_2.index t (1 : Fin 3) = 0 ∧ win0_2.index t (2 : Fin 3) = 0 :=
  (by decide +kernel : ∀ t : Fin grid0.N, _)

/-- Row r of the input block of point t is row 128 · T + r of x[b]. -/
theorem xblk_apply (c : Dev nD) (t : Fin cfg0.N) (r : Fin 128) (f : Fin 64) :
    xblk m c t (ix3 (0 : Fin 1) r f) = xarr m c (ix3 (bOf t) (pos (sOf t) r) f) := by
  obtain ⟨e0, e1, e2, -⟩ := idx_facts t
  show V m c main_arg0 (((cfg0.win 0).blk t).view.emb (ix3 (0 : Fin 1) r f)) = V m c main_arg0 (ix3 (bOf t) (pos (sOf t) r) f)
  refine congrArg _ (funext fun a => Fin.ext ?_)
  match a with
  | ⟨0, _⟩ => show win0_0.index t (0 : Fin 3) * 1 + 1 * 0 = t.val / 128; omega
  | ⟨1, _⟩ => show win0_0.index t (1 : Fin 3) * 128 + 1 * r.val = 128 * (t.val % 128) + r.val; omega
  | ⟨2, _⟩ => show win0_0.index t (2 : Fin 3) * 64 + 1 * f.val = f.val; omega

/-- The weight block is the whole transposed weight array. -/
theorem wblk_apply (c : Dev nD) (t : Fin cfg0.N) (f : Fin 64) (k : Fin 128) :
    wblk m c t (ix2 f k) = warr m c (ix2 f k) := by
  obtain ⟨-, -, -, e3, e4, -⟩ := idx_facts t
  show V m c main_v0 (((cfg0.win 1).blk t).view.emb (ix2 f k)) = V m c main_v0 (ix2 f k)
  refine congrArg _ (funext fun a => Fin.ext ?_)
  match a with
  | ⟨0, _⟩ => show win0_1.index t (0 : Fin 2) * 64 + 1 * f.val = f.val; omega
  | ⟨1, _⟩ => show win0_1.index t (1 : Fin 2) * 128 + 1 * k.val = k.val; omega

/-- One accumulation at point t adds tile T's count of x[b]. -/
theorem step (c : Dev nD) (t : Fin cfg0.N) (acc : Vec Ideal S64x128 .f32) (f : Fin 64) (k : Fin 128) :
    k0_pay2 (xblk m c t) acc (ix2 f k) = (acc (ix2 f k) : EReal) + tileCount (xarr m c) (bOf t) f k (sOf t) := by
  refine (pay2_apply (xblk m c t) acc f k).trans ?_
  refine congrArg (fun z => (acc (ix2 f k) : EReal) + z) ?_
  unfold tileCount
  refine Finset.sum_congr rfl fun r _ => ?_
  exact congrArg (fun v => hit (binWord v) (BitVec.ofNat 32 k.val)) (xblk_apply m c t r f)

/-! ## What the scratch and the output block hold after each point -/

/-- At a first tile the scratch is the accumulation over zeros. -/
theorem scr_first (c : Dev nD) (t : Fin cfg0.N) (h0 : t.val % 128 = 0) :
    (outsAt0 m c t.val t.isLt).2 = k0_pay2 (xblk m c t) (k0_pay1 (F := Ideal)) := by
  have h1 : ¬t.val % 128 = 127 := by omega
  rw [outsAt0_A m c t h0 h1]
  dsimp only
  exact sout_A (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- At any other tile it is the accumulation over what the point before left. -/
theorem scr_next (c : Dev nD) (t : Fin cfg0.N) (h0 : ¬t.val % 128 = 0) :
    (outsAt0 m c t.val t.isLt).2
      = k0_pay2 (xblk m c t) (outsAt0 m c (t.val - 1) (Nat.lt_of_le_of_lt (Nat.sub_le _ _) t.isLt)).2 := by
  by_cases h1 : t.val % 128 = 127
  · rw [outsAt0_C m c t h0 h1]
    dsimp only
    exact sout_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact sout_B (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At a last tile the output block is this point's scratch times the weight block. -/
theorem out_last (c : Dev nD) (t : Fin cfg0.N) (h1 : t.val % 128 = 127) :
    (outsAt0 m c t.val t.isLt).1 = k0_pay3 (outsAt0 m c t.val t.isLt).2 (wblk m c t) := by
  have h0 : ¬t.val % 128 = 0 := by omega
  rw [scr_next m c t h0, outsAt0_C m c t h0 h1]
  dsimp only
  exact out_C (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- THE RUNNING COUNT: after point n the scratch holds the counts of tiles 0 … n % 128 of row group n / 128. -/
theorem scratch_eq (c : Dev nD) (f : Fin 64) (k : Fin 128) : ∀ (n : ℕ) (h : n < cfg0.N),
    ((outsAt0 m c n h).2 (ix2 f k) : EReal) = running (tileCount (xarr m c) (bOf ⟨n, h⟩) f k) (n % 128) := by
  intro n
  induction n with
  | zero =>
    intro h
    have e := scr_first m c ⟨0, h⟩ rfl
    refine (congrFun e (ix2 f k)).trans ?_
    rw [step, pay1_apply, zero_add]
    show _ = running _ 0
    rw [running_zero]
    rfl
  | succ n ih =>
    intro h
    by_cases h0 : (n + 1) % 128 = 0
    · have e := scr_first m c ⟨n + 1, h⟩ h0
      refine (congrFun e (ix2 f k)).trans ?_
      rw [step, pay1_apply, zero_add, h0, running_zero]
      exact congrArg _ (Fin.ext h0)
    · have e := scr_next m c ⟨n + 1, h⟩ h0
      refine (congrFun e (ix2 f k)).trans ?_
      rw [step]
      have hn : n < cfg0.N := Nat.lt_of_succ_lt h
      have ih' := ih hn
      have hb : bOf ⟨n, hn⟩ = bOf ⟨n + 1, h⟩ := Fin.ext (by show n / 128 = (n + 1) / 128; omega)
      have hs : (n + 1) % 128 = n % 128 + 1 := by omega
      have hlt : n % 128 + 1 < 128 := by omega
      show ((outsAt0 m c n _).2 (ix2 f k) : EReal) + _ = _
      rw [ih', hb, hs, running_succ _ _ hlt]
      exact congrArg _ (congrArg _ (Fin.ext hs))

/-! ## The result array of the region -/

/-- The region's result [32, 64, 128]: the count of x[b] at (f, k) times the transposed weight at (f, k). -/
def Hk (x : (⟨3, ![32, 16384, 64]⟩ : Shape).Idx → EReal) (wt : (⟨2, ![64, 128]⟩ : Shape).Idx → EReal) :
    (⟨3, ![32, 64, 128]⟩ : Shape).Idx → EReal :=
  fun j => count x (j 0) (j 1) (j 2) * wt (ix2 (j 1) (j 2))

/-- The output block of a last tile, entry by entry: the whole count of x[b] times the transposed weight. -/
theorem flushed_val (c : Dev nD) (t : Fin cfg0.N) (h1 : t.val % 128 = 127) (y : S1x64x128.Idx) :
    k0_pay3 (outsAt0 m c t.val t.isLt).2 (wblk m c t) y = Hk (xarr m c) (warr m c) (ix3 (bOf t) (y 1) (y 2)) := by
  obtain ⟨u, f, k, rfl⟩ : ∃ (u : Fin 1) (f : Fin 64) (k : Fin 128), y = ix3 u f k := ⟨y 0, y 1, y 2, eq_ix3 y⟩
  show k0_pay3 (outsAt0 m c t.val t.isLt).2 (wblk m c t) (ix3 u f k) = Hk (xarr m c) (warr m c) (ix3 (bOf t) f k)
  refine (pay3_apply (outsAt0 m c t.val t.isLt).2 (wblk m c t) u f k).trans ?_
  rw [scratch_eq m c f k t.val t.isLt, h1, running_last, ← count_eq_tiles, wblk_apply]
  rfl

/-- What a last tile writes back is block b of that result. -/
theorem flushed_eq (c : Dev nD) (t : Fin cfg0.N) (hf : (cfg0.win 2).flush t = true) :
    (dats m 0 c).flushed 2 t = ((cfg0.win 2).blk t).view.read (Elt Ideal) (Hk (xarr m c) (warr m c)) := by
  have h1 : t.val % 128 = 127 := (flush0_2 t).mp hf
  obtain ⟨-, -, -, -, -, e5, e6, e7⟩ := idx_facts t
  show (cfg0.win 2).cut (grid0.coords t) ((dats m 0 c).after 2 t) = _
  rw [after0_2, out_last m c t h1]
  funext y
  show k0_pay3 (outsAt0 m c t.val t.isLt).2 (wblk m c t) y = Hk (xarr m c) (warr m c) (((cfg0.win 2).blk t).view.emb y)
  have hemb : ((cfg0.win 2).blk t).view.emb y = ix3 (bOf t) (y 1) (y 2) := by
    funext a; apply Fin.ext
    match a with
    | ⟨0, _⟩ => show win0_2.index t (0 : Fin 3) * 1 + 1 * (y 0).val = t.val / 128; have : (y 0).val < 1 := (y 0).isLt; omega
    | ⟨1, _⟩ => show win0_2.index t (1 : Fin 3) * 64 + 1 * (y 1).val = (y 1).val; omega
    | ⟨2, _⟩ => show win0_2.index t (2 : Fin 3) * 128 + 1 * (y 2).val = (y 2).val; omega
  rw [hemb]
  exact flushed_val m c t h1 y

/-- An index of the result is in point t's block iff each coordinate is in the block's range. -/
theorem mem_blk (t : Fin cfg0.N) (i : S32x64x128.Idx) :
    i ∈ ((cfg0.win 2).blk t).view.set ↔ ∀ a : Fin 3, win0_2.index t a * S1x64x128.size a ≤ (i a).val ∧ (i a).val < win0_2.index t a * S1x64x128.size a + S1x64x128.size a := by
  show i ∈ ((View.whole main_v1).slice (win0_2.rect t)).set ↔ _
  rw [View.set_slice_whole, Rect.mem_set_unit]
  exact Iff.rfl

/-- The 32 written blocks tile the result, so it ends holding the weighted counts. -/
theorem final (c : Dev nD) : (dats m 0 c).arrAt 2 cfg0.N = Hk (xarr m c) (warr m c) :=
  (dats m 0 c).arrAt_eq_of_cover 2 (Hk (xarr m c) (warr m c)) (flushed_eq m c) fun i => by
    have hi0 : (i 0).val < 32 := (i 0).isLt
    have hi1 : (i 1).val < 64 := (i 1).isLt
    have hi2 : (i 2).val < 128 := (i 2).isLt
    have hN : cfg0.N = 4096 := N_0
    let t : Fin cfg0.N := ⟨(i 0).val * 128 + 127, by omega⟩
    have htv : t.val = (i 0).val * 128 + 127 := rfl
    obtain ⟨-, -, -, -, -, e5, e6, e7⟩ := idx_facts t
    refine ⟨t, (flush0_2 t).mpr (by rw [htv]; omega), ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 64 ≤ (i 1).val ∧ (i 1).val < win0_2.index t (1 : Fin 3) * 64 + 64; omega
    | ⟨2, _⟩ => show win0_2.index t (2 : Fin 3) * 128 ≤ (i 2).val ∧ (i 2).val < win0_2.index t (2 : Fin 3) * 128 + 128; omega

/-! ## The host operations around the region -/

/-- The region finds the weights transposed by the host. -/
theorem warr_eq (c : Dev nD) :
    warr m c = transpose S64x128 [1, 0] (m ((c : Thread nD τ).loc main_arg1)) transposes_S128x64_S64x128_1_0 := by
  show StableHlo.after hostOps0 (fun b => m (c, b)) (Proc.devRef .tc main_v0) = _
  after_results

/-- After the region the host swaps the last two axes of the region's result. -/
theorem tail_eq (c : Dev nD) :
    Pipeline.afterTail₀ cfgs (dats m) 0 (V0 m) [hostOps1] c main_v2
      = transpose S32x128x64 [0, 2, 1] ((dats m 0 c).arrAt 2 cfg0.N) transposes_S32x64x128_S32x128x64_0_2_1 := by
  unfold Pipeline.afterTail₀
  show StableHlo.after hostOps1 _ (Proc.devRef .tc main_v2) = _
  after_results
  exact congrArg (fun v => transpose S32x128x64 [0, 2, 1] v transposes_S32x64x128_S32x128x64_0_2_1)
    (Pipeline.withArrays_arr spec0 launch0.win.arr_inj c _ _ 2)

/-- The program's result is the histogram of the specification. -/
theorem result_eq (c : Dev nD) :
    Pipeline.afterTail₀ cfgs (dats m) 0 (V0 m) [hostOps1] c main_v2
      = G (m ((c : Thread nD τ).loc main_arg0)) (m ((c : Thread nD τ).loc main_arg1)) := by
  rw [tail_eq, final]
  funext j
  obtain ⟨b, k, f, rfl⟩ : ∃ (b : Fin 32) (k : Fin 128) (f : Fin 64), j = ix3 b k f := ⟨j 0, j 1, j 2, eq_ix3 j⟩
  rw [transpose_ix3_021_apply]
  show count (xarr m c) b f k * warr m c (ix2 f k) = count _ b f k * _
  rw [warr_eq, transpose_ix2_apply]
  show count (V m c main_arg0) b f k * _ = _
  rw [V_main_arg0]

/-! ## The run, read -/

/-- Every weakly fair execution of the idealized kernel terminates with the result at the histogram of its arguments,
    the arguments unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.HistValue

end
-- ==== Proof.LibSegCount.lean ====
/-
  Reading a one-dimensional scatter-add (a segment count, or a segment sum of scalars) at an index.

  segment_sum of the entries of upd : [n] by the numbers idx : [n, 1] into x : [R] is the scatter with an add body
  and no window axis: at the ideal instance element r of the result is x r plus the sum over the updates i whose
  number, read signed and NOT clamped, is r, of upd i; an update whose number is outside [0, R) contributes nowhere.
-/
import Idealize.ShloMosaic.PureOps.Ideal
import Idealize.ShloMosaic.Lib.ValueIdx

noncomputable section

namespace Idealize.ShloMosaic.SegCount

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars: operand [R], numbers [n, 1], updates [n], no window axis. -/
abbrev segScatterDims (R n : Nat)
    (wf : ScatterDims.WF ⟨1, ![R]⟩ ⟨2, ![n, 1]⟩ ⟨1, ![n]⟩ [] [0] [0] 1) :
    ScatterDims ⟨1, ![R]⟩ ⟨2, ![n, 1]⟩ ⟨1, ![n]⟩ where
  updateWindowDims := []
  insertedWindowDims := [0]
  scatterDimsToOperandDims := [0]
  indexVectorDim := 1
  wf := wf

/-- The window of update i starts at i's number, read signed. -/
theorem start_seg {R n w : Nat}
    (wf : ScatterDims.WF ⟨1, ![R]⟩ ⟨2, ![n, 1]⟩ ⟨1, ![n]⟩ [] [0] [0] 1)
    (idx : IVec ⟨2, ![n, 1]⟩ w) (i : Fin n) :
    (segScatterDims R n wf).start (ix1 i) idx 0 = (idx (ix2 i (0 : Fin 1))).toInt := by
  unfold ScatterDims.start
  rw [dif_pos (show (0 : Fin 1) ∈ (segScatterDims R n wf).scatterDimsToOperandDims from List.mem_singleton.mpr rfl)]
  have hsi : (segScatterDims R n wf).siIdx (ix1 i)
      ⟨List.idxOf (0 : Fin 1) (segScatterDims R n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- The one operand axis is inserted: the window coordinate there is 0. -/
theorem window_seg {R n : Nat}
    (wf : ScatterDims.WF ⟨1, ![R]⟩ ⟨2, ![n, 1]⟩ ⟨1, ![n]⟩ [] [0] [0] 1) (i : Fin n) :
    (segScatterDims R n wf).window (ix1 i) 0 = 0 := by
  unfold ScatterDims.window
  have h : (0 : Fin 1) ∉ (segScatterDims R n wf).sKept := by
    show (0 : Fin 1) ∉ (List.finRange 1).filter (· ∉ ([0] : List (Fin 1)))
    decide
  rw [dif_neg h]

/-- Where update i lands: at r exactly when i's number, read signed, is r. -/
theorem resultIdx_seg_iff {R n w : Nat}
    (wf : ScatterDims.WF ⟨1, ![R]⟩ ⟨2, ![n, 1]⟩ ⟨1, ![n]⟩ [] [0] [0] 1)
    (idx : IVec ⟨2, ![n, 1]⟩ w) (i : Fin n) (r : Fin R) :
    (segScatterDims R n wf).resultIdx? (ix1 i) idx = some (ix1 r)
      ↔ (idx (ix2 i (0 : Fin 1))).toInt = (r.val : Int) := by
  have hs0 := start_seg wf idx i
  have hw0 := window_seg wf i
  have hr := r.isLt
  unfold ScatterDims.resultIdx?
  by_cases h : ∀ a : Fin 1, 0 ≤ (segScatterDims R n wf).start (ix1 i) idx a + (segScatterDims R n wf).window (ix1 i) a
      ∧ (segScatterDims R n wf).start (ix1 i) idx a + (segScatterDims R n wf).window (ix1 i) a
          < ((⟨1, ![R]⟩ : Shape).size a : Int)
  · -- the landing index is inside the operand: it is the number itself
    rw [dif_pos h, Option.some.injEq]
    have h0 := h 0
    rw [hs0, hw0] at h0
    constructor
    · intro hEq
      have e0 : ((segScatterDims R n wf).start (ix1 i) idx 0 + (segScatterDims R n wf).window (ix1 i) 0).toNat = r.val :=
        congrArg Fin.val (congrFun hEq 0)
      rw [hs0, hw0] at e0
      omega
    · intro hrow
      funext a
      refine Fin.ext ?_
      match a with
      | ⟨0, _⟩ =>
        show ((segScatterDims R n wf).start (ix1 i) idx 0 + (segScatterDims R n wf).window (ix1 i) 0).toNat = r.val
        rw [hs0, hw0]; omega
  · -- the number is outside the operand: the update is dropped, and a number equal to some r < R would be inside
    rw [dif_neg h]
    constructor
    · intro hEq; cases hEq
    · intro hrow
      exfalso; apply h
      intro a
      match a with
      | ⟨0, _⟩ =>
        show 0 ≤ (segScatterDims R n wf).start (ix1 i) idx 0 + (segScatterDims R n wf).window (ix1 i) 0
          ∧ (segScatterDims R n wf).start (ix1 i) idx 0 + (segScatterDims R n wf).window (ix1 i) 0 < (R : Int)
        rw [hs0, hw0]; omega

/-- Element r of a scatter-add of scalars at the ideal instance: the operand's element plus the updates numbered r. -/
theorem scatterAdd_seg_apply {R n w : Nat}
    (wf : ScatterDims.WF ⟨1, ![R]⟩ ⟨2, ![n, 1]⟩ ⟨1, ![n]⟩ [] [0] [0] 1)
    (x : (⟨1, ![R]⟩ : Shape).Idx → EReal) (idx : IVec ⟨2, ![n, 1]⟩ w)
    (upd : (⟨1, ![n]⟩ : Shape).Idx → EReal) (r : Fin R) :
    Ideal.hostScatterAdd (segScatterDims R n wf) x idx upd (ix1 r)
      = x (ix1 r) + ∑ i : Fin n, if (idx (ix2 i (0 : Fin 1))).toInt = (r.val : Int) then upd (ix1 i) else 0 := by
  unfold Ideal.hostScatterAdd
  show _ + _ = _ + _
  congr 1
  rw [Finset.sum_filter, sum_idx1]
  refine Finset.sum_congr rfl fun i _ => ?_
  exact if_congr (resultIdx_seg_iff wf idx i r) rfl rfl

end Idealize.ShloMosaic.SegCount

end
-- ==== Proof.RefSide.lean ====
/-
  The reference side: the reference program's result array is the weighted histogram G.

  The reference numbers every position (b, s, f) of the input with the segment (b · 64 + f) · 128 + bin (x b s f),
  adds a one to that segment of a zero array of 262144 elements, reads the array as [32, 64, 128], swaps its last two
  axes and multiplies by the weights.  Read at (b, k, f), the scattered array's element (b · 64 + f) · 128 + k is the
  sum, over all 33554432 flattened positions, of the indicator "the position's segment is (b · 64 + f) · 128 + k".  The
  flattened positions are the indices (b', s, f') in row-major order, so the sum is one over the index set; a bin is in
  [0, 127], so only the positions of row (b, ·, f) with bin k count (seg_count), and the sum is count x b f k.
-/
import proofs.«148349_j63668595196222_1_alg».proof.Proof.HistSums
import proofs.«148349_j63668595196222_1_alg».proof.Proof.LibSegCount
import proofs.«148349_j63668595196222_1_alg».proof.Proof.LibSumIdx
import proofs.«148349_j63668595196222_1_alg».proof.Proof.Gen.ReferenceIdeal.Read

noncomputable section

namespace Cert.Hist.Ref

open Idealize.ShloMosaic Idealize.ShloMosaic.ValueIdx
open Cert.ReferenceIdeal Cert.ReferenceIdeal.Gen Cert.ReferenceIdeal.Read

/-! ## The segment number at a position -/

/-- The reference's segment array at position i is the segment of (i 0, i 2) with the bin of x i. -/
theorem seg_apply (x0 : (⟨S32x16384x64, .f32⟩ : BufTy).Contents (Elt Ideal)) (i : S32x16384x64.Idx) :
    val_main_v16 (F := Ideal) x0 i = segWord (i 0) (i 2) (binWord (x0 i)) := by
  rw [val_main_v16_apply, val_main_v15_apply, val_main_v14_apply, val_main_v13_apply, val_main_c_2_apply,
    val_main_v12_apply, val_main_v10_apply, val_main_v9_apply, val_main_v5_apply, val_main_v4_apply,
    val_main_v8_apply, val_main_c_1_apply, val_main_v11_apply, val_main_v7_apply, val_main_v6_apply,
    val_main_v3_apply, val_main_call0_v4_apply, val_main_call0_v3_apply, val_main_c_0_apply,
    val_main_call0_v2_apply, val_main_call0_v1_apply, val_main_call0_v0_apply, val_main_c_apply,
    val_main_v2_apply, val_main_v1_apply, val_main_v0_apply, val_main_cst_apply]
  rfl

/-! ## The flattened positions -/

/-- Flattened position i of 33554432 is the index (i / 1048576, i / 64 mod 16384, i mod 64): row-major order. -/
def unflat : Fin 33554432 ≃ (⟨3, ![32, 16384, 64]⟩ : Shape).Idx where
  toFun i := ix3 (⟨i.val / 1048576, by have := i.isLt; omega⟩ : Fin 32)
    (⟨i.val / 64 % 16384, by omega⟩ : Fin 16384) (⟨i.val % 64, by omega⟩ : Fin 64)
  invFun k := ⟨((k 0).val * 16384 + (k 1).val) * 64 + (k 2).val, by
    have h0 : (k 0).val < 32 := (k 0).isLt
    have h1 : (k 1).val < 16384 := (k 1).isLt
    have h2 : (k 2).val < 64 := (k 2).isLt
    omega⟩
  left_inv i := by
    refine Fin.ext ?_
    show (i.val / 1048576 * 16384 + i.val / 64 % 16384) * 64 + i.val % 64 = i.val
    omega
  right_inv k := by
    have h0 : (k 0).val < 32 := (k 0).isLt
    have h1 : (k 1).val < 16384 := (k 1).isLt
    have h2 : (k 2).val < 64 := (k 2).isLt
    funext a
    refine Fin.ext ?_
    match a with
    | ⟨0, _⟩ =>
      show (((k 0).val * 16384 + (k 1).val) * 64 + (k 2).val) / 1048576 = (k 0).val
      omega
    | ⟨1, _⟩ =>
      show (((k 0).val * 16384 + (k 1).val) * 64 + (k 2).val) / 64 % 16384 = (k 1).val
      omega
    | ⟨2, _⟩ =>
      show (((k 0).val * 16384 + (k 1).val) * 64 + (k 2).val) % 64 = (k 2).val
      omega

/-- The reshaped, broadcast segment array at flattened position i reads the segment array at unflat i. -/
theorem idx_unflat (i : Fin 33554432) : idx_main_v18 (idx_main_v20 (ix2 i (0 : Fin 1))) = unflat i := by
  funext a
  match a with
  | ⟨0, _⟩ => rfl
  | ⟨1, _⟩ => rfl
  | ⟨2, _⟩ => rfl

/-! ## The scattered array at a segment -/

/-- The word 0 is the number zero. -/
theorem ofBits_zero_f32 : Ideal.ofBits .f32 0x00000000#32 = 0 := by
  simp [Ideal.ofBits, Ideal.ieee]

/-- The word 0x3F800000 is the number one: sign 0, exponent 127, fraction 0, so 2 ^ 23 · 2 ^ (-23). -/
theorem ofBits_one_f32 : Ideal.ofBits .f32 0x3F800000#32 = 1 := by
  simp [Ideal.ofBits, Ideal.ieee]
  rw [← EReal.coe_mul, ← EReal.coe_one]; congr 1; norm_num

/-- The reference's scatter has the dimension numbers of a scatter of scalars. -/
theorem dims_eq : scatter_S262144_S33554432x1_S33554432_n_0_0_1
    = Idealize.ShloMosaic.SegCount.segScatterDims 262144 33554432
        Cert.ReferenceIdeal.Gen.scatter_S262144_S33554432x1_S33554432_n_0_0_1_wf := rfl

/-- On the extended reals the host's accumulating scatter is the exact one. -/
theorem host_eq {s si u : Shape} {w : Nat} (d : ScatterDims s si u) (x : FVec Ideal s .f32) (idx : IVec si w)
    (upd : FVec Ideal u .f32) : Host.scatterAdd d x idx upd = Ideal.hostScatterAdd d x idx upd := rfl

/-- Element r of the scattered array: the operand's element plus the updates whose number is r. -/
theorem scatter_apply0 (x0 : (⟨S32x16384x64, .f32⟩ : BufTy).Contents (Elt Ideal)) (r : Fin 262144) :
    val_main_v21 (F := Ideal) x0 (ix1 r)
      = val_main_v19 (F := Ideal) (ix1 r) + ∑ i : Fin 33554432,
          if (val_main_v20 (F := Ideal) x0 (ix2 i (0 : Fin 1))).toInt = (r.val : Int)
            then val_main_v17 (F := Ideal) (ix1 i) else 0 := by
  unfold val_main_v21
  rw [host_eq, dims_eq]
  exact Idealize.ShloMosaic.SegCount.scatterAdd_seg_apply (R := 262144) (n := 33554432)
    Cert.ReferenceIdeal.Gen.scatter_S262144_S33554432x1_S33554432_n_0_0_1_wf
    (val_main_v19 (F := Ideal)) (val_main_v20 (F := Ideal) x0) (val_main_v17 (F := Ideal)) r

/-- Element r of the scattered array: how many positions have segment r. -/
theorem scatter_apply (x0 : (⟨S32x16384x64, .f32⟩ : BufTy).Contents (Elt Ideal)) (r : Fin 262144) :
    val_main_v21 (F := Ideal) x0 (ix1 r)
      = ∑ i : (⟨3, ![32, 16384, 64]⟩ : Shape).Idx,
          if (segWord (i 0) (i 2) (binWord (x0 i))).toInt = (r.val : Int) then (1 : EReal) else 0 := by
  have hz : val_main_v19 (F := Ideal) (ix1 r) = 0 := by
    rw [val_main_v19_apply, val_main_cst_4_apply]
    exact ofBits_zero_f32
  rw [scatter_apply0, hz, zero_add, ← Equiv.sum_comp unflat]
  refine Finset.sum_congr rfl fun i _ => ?_
  have hu : val_main_v17 (F := Ideal) (ix1 i) = 1 := by
    rw [val_main_v17_apply, val_main_cst_3_apply]
    exact ofBits_one_f32
  rw [hu, val_main_v20_apply, val_main_v18_apply, idx_unflat, seg_apply]

/-- The scattered array at segment (b · 64 + f) · 128 + k is the count of row (b, ·, f) in bin k. -/
theorem scatter_count (x0 : (⟨S32x16384x64, .f32⟩ : BufTy).Contents (Elt Ideal)) (b : Fin 32) (f : Fin 64) (k : Fin 128) :
    val_main_v21 (F := Ideal) x0
        (ix1 (⟨(b.val * 64 + f.val) * 128 + k.val, by have := b.isLt; have := f.isLt; have := k.isLt; omega⟩ : Fin 262144))
      = count x0 b f k := by
  rw [scatter_apply]
  exact seg_count x0 b f k

/-! ## The result -/

/-- The reference's result is the weighted histogram. -/
theorem ref_eq (x0 : (⟨Cert.ReferenceIdeal.S32x16384x64, .f32⟩ : BufTy).Contents (Elt Ideal))
    (x1 : (⟨Cert.ReferenceIdeal.S128x64, .f32⟩ : BufTy).Contents (Elt Ideal)) :
    Cert.ReferenceIdeal.Read.val_main_v26 (F := Ideal) x0 x1 = Cert.Hist.G x0 x1 := by
  funext j
  rw [val_main_v26_apply, val_main_v23_apply, val_main_v22_apply, val_main_v25_apply, val_main_v24_apply]
  have e1 : idx_main_v22 (idx_main_v23 j)
      = ix1 (⟨((j 0).val * 64 + (j 2).val) * 128 + (j 1).val, by
          have h0 : (j 0).val < 32 := (j 0).isLt
          have h1 : (j 1).val < 128 := (j 1).isLt
          have h2 : (j 2).val < 64 := (j 2).isLt
          omega⟩ : Fin 262144) := by
    funext a
    match a with
    | ⟨0, _⟩ => rfl
  have e2 : idx_main_v24 (idx_main_v25 j) = ix2 (j 1) (j 2) := by
    funext a
    match a with
    | ⟨0, _⟩ => rfl
    | ⟨1, _⟩ => rfl
  rw [e1, e2, scatter_count x0 (j 0) (j 2) (j 1)]
  rfl

end Cert.Hist.Ref

end
-- ==== Proof.lean ====
/-
  A weighted histogram, two ways.

  For x : [32, 16384, 64] and w : [128, 64] both programs return, at (b, k, f), the number of positions s with
  bin (x b s f) = k, times w k f, where bin v is v · 128 truncated toward zero and clamped to [0, 127]
  (Proof/HistSpec.lean: `Cert.Hist.G`).  The kernel walks each x[b] in 128 tiles of 128 rows, compares every bin against
  every k, sums the indicators over the tile's rows and accumulates the tiles in a scratch that it multiplies by the
  transposed weights after the last tile (Proof/KernelValue.lean); the reference numbers each (b, s, f) with the segment
  (b · 64 + f) · 128 + bin and adds a one to that segment (Proof/RefSide.lean).  Both are the same sum of indicators,
  regrouped (Proof/HistSums.lean), and on the extended reals a sum may be regrouped without any finiteness: the
  precondition is not used.  The ideal pass rewrote nothing, so `preserves` is trivial; the three frames are the generated
  frame of each kernel program and the reference's generated run with its result dropped.
-/
import proofs.«148349_j63668595196222_1_alg».proof.Defs
import proofs.«148349_j63668595196222_1_alg».proof.Proof.Gen.Kernel
import proofs.«148349_j63668595196222_1_alg».proof.Proof.Gen.Kernel.Frame
import proofs.«148349_j63668595196222_1_alg».proof.Proof.Gen.KernelIdeal
import proofs.«148349_j63668595196222_1_alg».proof.Proof.Gen.KernelIdeal.Frame
import proofs.«148349_j63668595196222_1_alg».proof.Proof.Gen.ReferenceIdeal
import proofs.«148349_j63668595196222_1_alg».proof.Proof.Gen.Pre_finite_inputs
import proofs.«148349_j63668595196222_1_alg».proof.Proof.Gen.ReferenceIdeal.Run
import proofs.«148349_j63668595196222_1_alg».proof.Proof.Gen.ReferenceIdeal.Read
import proofs.«148349_j63668595196222_1_alg».proof.Proof.KernelValue
import proofs.«148349_j63668595196222_1_alg».proof.Proof.RefSide
import Idealize.ShloMosaic.Adequacy
import Idealize.ShloMosaic.Init

noncomputable section

namespace Cert.Proof

open Idealize.ShloMosaic Idealize.SL.Sem

namespace HistClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the histogram `G` of arguments that agree. -/
theorem algebraic : Cert.algebraic_KernelIdeal_ReferenceIdeal := by
  intro m ρ m' ρ' _ hagree
  refine ⟨_, Cert.KernelIdeal.HistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Hist.Ref.ref_eq, (hagree c).1, (hagree c).2]

end HistClaims

theorem claim : Cert.Claim := ⟨Cert.Kernel.Gen.facts, Cert.KernelIdeal.Gen.facts, Cert.ReferenceIdeal.Gen.facts, Cert.Pre_finite_inputs.Gen.facts,
  HistClaims.frame_k, HistClaims.frame_ki, HistClaims.frame_ri, HistClaims.preserves, HistClaims.algebraic⟩

end Cert.Proof

end
